-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel

variable [Facts]

def fn {F : FTy → Type} [FloatOps F] (main_arg0 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  main_v3
-- ==== Kernel.lean ====
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S1024x1024 : Shape := ⟨2, ![1024, 1024]⟩
abbrev S1024x1 : Shape := ⟨2, ![1024, 1]⟩
abbrev S1x1024 : Shape := ⟨2, ![1, 1024]⟩

abbrev nBuf : Space → Nat
  | .hbm => 8
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S1x4096, .f32⟩
  | .hbm, ⟨7, _⟩ => ⟨S4096x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1, .f32⟩
  | .local _ .vmem, ⟨5, _⟩ => ⟨S1024x1, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bitsLt_bf16_f32 : FTy.bits .bf16 < FTy.bits .f32
  reducesTo_S4096x1024_S4096_d1 : S4096x1024.ReducesTo [1] S4096
  h_S_ : 0 < S_.numel
  bcast_S4096_S4096x1_0 : S4096.BroadcastsInDim S4096x1 (![0] : Fin 1 → Fin S4096x1.rank)
  shapeCasts_S4096x1_S1x4096 : S4096x1.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x1024.size a
  hwx0_0 : ∀ i : grid0.Coords, EltTy.bits .bf16 = 32 ∨ (Rect.block (s := S4096x1024) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x1024.size a
  hwx0_1 : ∀ i : grid0.Coords, EltTy.bits .bf16 = 32 ∨ (Rect.block (s := S4096x1024) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S4096x1.size a
  hwx0_2 : ∀ i : grid0.Coords, EltTy.bits .f32 = 32 ∨ (Rect.block (s := S4096x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .f32 = 32 ∨ (Rect.block (s := S1x4096) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S4096x4096.size a
  hwx0_4 : ∀ i : grid0.Coords, EltTy.bits .f32 = 32 ∨ (Rect.block (s := S4096x4096) S1024x1024.size (cc0_transform_4 i) (hinb0_4 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S_ : Shape := ⟨0, ![]⟩
abbrev S4096 : Shape := ⟨1, ![4096]⟩
abbrev S1024x4096 : Shape := ⟨2, ![1024, 4096]⟩
abbrev S4096x4096 : Shape := ⟨2, ![4096, 4096]⟩
abbrev S4096x1 : Shape := ⟨2, ![4096, 1]⟩
abbrev S1x4096 : Shape := ⟨2, ![1, 4096]⟩

abbrev nBuf : Space → Nat
  | .hbm => 23
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S4096, .f32⟩
  | .hbm, ⟨4, _⟩ => ⟨S1024x4096, .f32⟩
  | .hbm, ⟨5, _⟩ => ⟨S4096x4096, .f32⟩
  | .hbm, ⟨6, _⟩ => ⟨S4096x1, .f32⟩
  | .hbm, ⟨7, _⟩ => ⟨S1x4096, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S_, .f32⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S_, .f32⟩
  | .hbm, ⟨16, _⟩ => ⟨S4096x4096, .f32⟩
  | .hbm, ⟨17, _⟩ => ⟨S4096x4096, .f32⟩
  | .hbm, ⟨18, _⟩ => ⟨S4096x4096, .f32⟩
  | .hbm, ⟨19, _⟩ => ⟨S_, .f32⟩
  | .hbm, ⟨20, _⟩ => ⟨S4096x4096, .f32⟩
  | .hbm, ⟨21, _⟩ => ⟨S4096x4096, .f32⟩
  | .hbm, ⟨22, _⟩ => ⟨S4096x4096, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_1 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_2 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩

abbrev nD : Nat := 1
abbrev τ : Topo := Topo.v7x

variable {F : FTy → Type} [FloatOps F]

class Facts₀ : Prop where
  reducesTo_S4096x1024_S4096_d1 : S4096x1024.ReducesTo [1] S4096
  h_S_ : 0 < S_.numel
  transposes_S4096x1024_S1024x4096_1_0 : S4096x1024.Transposes [1, 0] S1024x4096
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  dot_S4096x1024_S1024x4096_S4096x4096_1_0_0_1_n_n_wf : DotDims.WF S4096x1024 S1024x4096 S4096x4096 [1] [0] [0] [1] [] []

variable [Facts₀]

def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf

class Facts : Prop extends Facts₀ where

variable [Facts]
-- ==== Proof.RegionBits.lean ====
/-
  The frame of the program's one kernel region, for any float instance.

  @main computes, by host operations, the bf16 copy of the input matrix, the column of squared row norms and the same
  values as a row, and then runs the kernel on a 4 x 4 grid: at point (i, j) the body reads row block i and row block j of
  the bf16 copy (two windows on ONE array), block i of the column, block j of the row, and stores one 1024 x 1024 block
  of the result. Because two input windows read one array, that array's full share is dealt between them in halves; every
  other array is held whole. Nothing is carried between grid points and the body uses no scratch, so the invariant of
  the region is the (empty) rest of the scoped buffers. The run ends with every window's array at what the write-backs
  left and every other buffer of @main, the argument among them, as the region found it.
-/
import proofs.«122050_j67370857005321_1_alg».proof.Proof.Gen.Kernel.Launch
import proofs.«122050_j67370857005321_1_alg».proof.Proof.Gen.Kernel.Skeleton
import proofs.«122050_j67370857005321_1_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the six host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes the argument: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not: where it is not
    fetched its block index has not moved since the point before. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body -/

/-- The whole 1024 x 1024 buffer, the whole column and the whole row: the rectangles of the body's loads and store. -/
abbrev rSq : Rect S1024x1024 := Rect.unit (s := S1024x1024) ![0, 0] S1024x1024.size inb_S1024x1024_S1024x1024_0_0
abbrev rCol : Rect S1024x1 := Rect.unit (s := S1024x1) ![0, 0] S1024x1.size inb_S1024x1_S1024x1_0_0
abbrev rRow : Rect S1x1024 := Rect.unit (s := S1x1024) ![0, 0] S1x1024.size inb_S1x1024_S1x1024_0_0

/-- What the body leaves in the output window's buffer: its one store, of the body's arithmetic on the four loaded blocks. -/
def out0_4 (x0 x1 : Vec F S1024x1024 .bf16) (x2 : Vec F S1024x1 .f32) (x3 : Vec F S1x1024 .f32) : Vec F S1024x1024 .f32 :=
  View.canon [⟨rSq, k0_pay1 (View.ld x0 rSq) (View.ld x1 rSq) (View.ld x2 rCol) (View.ld x3 rRow)⟩]

/-- The one store covers the buffer. -/
theorem cover0_4 (p0 : Vec F S1024x1024 .f32) (y : S1024x1024.Idx) :
    ∃ pc ∈ ([⟨rSq, p0⟩] : List (View.Piece (Elt F) S1024x1024 .f32)), y ∈ pc.1.set :=
  View.cover_of_tiled [⟨rSq, p0⟩] S1024x1024.size (by rfl) y

set_option maxHeartbeats 1000000 in
/-- The body on whole staging memrefs, the four inputs' at read contents and the output's at anything, runs to the
    continuation holding the inputs' as they were and the output's at `out0_4` of the inputs'. -/
theorem sound_kernel (c : Dev nD) (E : Set ℕ) (i : grid0.Coords)
    (arg2 : Memref sig .tc .vmem S1024x1024 .bf16) (harg2 : arg2.IsWhole) (arg3 : Memref sig .tc .vmem S1024x1024 .bf16) (harg3 : arg3.IsWhole)
    (arg4 : Memref sig .tc .vmem S1024x1 .f32) (harg4 : arg4.IsWhole) (arg5 : Memref sig .tc .vmem S1x1024 .f32) (harg5 : arg5.IsWhole)
    (arg6 : Memref sig .tc .vmem S1024x1024 .f32) (harg6 : arg6.IsWhole)
    (x0 x1 : Vec F S1024x1024 .bf16) (x2 : Vec F S1024x1 .f32) (x3 : Vec F S1x1024 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (out0_4 x0 x1 x2 x3)) -∗ K ⟨⟩))
      ⊢ wp frame (wpE (defs₀ (F := F)) Variants.none c none) E (cc0__gaussian_kernel_body i arg2 harg2 arg3 harg3 arg4 harg4 arg5 harg5 arg6 harg6) K := by
  simp only [cc0__gaussian_kernel_body_eq_skeleton]; unfold cc0__gaussian_kernel_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The proof data -/

/-- On core `c`: the arrays as the region finds them; after the body at point `t` each input's buffer still at its block
    and the output's at the body's result on the four blocks; the invariant the rest of the scoped buffers; the array the
    two row-block windows share held in halves, one each; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (iblk m c 0 t) (iblk m c 1 t) (iblk m c 2 t) (iblk m c 3 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = out0_4 (iblk m c 0 t) (iblk m c 1 t) (iblk m c 2 t) (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' buffers hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact sound_body m c t

/-! ## The arrays at entry: one array dealt to two windows -/

theorem arrAt_zero (c : Dev nD) (w : Fin cfg0.W) : (dats m 0 c).arrAt w 0 = V m c (Pipeline.arrRef spec0 w) := rfl
theorem inv_eq (c : Dev nD) (t : Fin (cfg0.N + 1)) :
    (dats m 0 c).Φ t = Pipeline.scopedRest (Ix := Unit) (Name := ℕ) (U := UR sig nD τ) (Lvl := ℕ) (Val := Elt F) spec0 c := rfl

theorem share_0 (c : Dev nD) : (dats m 0 c).share 0 = fullShare.left := rfl
theorem share_1 (c : Dev nD) : (dats m 0 c).share 1 = fullShare.right := rfl
theorem share_2 (c : Dev nD) : (dats m 0 c).share 2 = fullShare := rfl
theorem share_3 (c : Dev nD) : (dats m 0 c).share 3 = fullShare := rfl
theorem share_4 (c : Dev nD) : (dats m 0 c).share 4 = fullShare := rfl

/-- The distinct buffers behind the five windows' arrays, listed: the bf16 copy, the column, the row and the result. -/
theorem arrBufs_eq (c : Dev nD) :
    (Pipeline.arrBufs (Ix := Unit) (Name := ℕ) (U := UR sig nD τ) (Lvl := ℕ) spec0 c (V m c) : sProp 𝕄)
      = iprop((((c : Thread nD τ).loc main_v0) ↦{fullShare} V m c main_v0) ∗ (((c : Thread nD τ).loc main_v3) ↦{fullShare} V m c main_v3)
          ∗ (((c : Thread nD τ).loc main_v4) ↦{fullShare} V m c main_v4) ∗ (((c : Thread nD τ).loc main_v5) ↦{fullShare} V m c main_v5)) := by
  unfold Pipeline.arrBufs
  exact bigSep_eq_bigSepL_of_eq [main_v0, main_v3, main_v4, main_v5] (by decide) (by decide) _

/-- The four buffers behind the five windows' arrays, each whole at the full share at its entry contents, make the
    windows' holdings at entry: the bf16 copy's full share splits into the two halves the row-block windows hold. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq]
  unfold Dat.arrays
  rw [bigSep_W0]
  rw [(arr_whole0 0).set_eq_univ, (arr_whole0 2).set_eq_univ, (arr_whole0 3).set_eq_univ, (arr_whole0 4).set_eq_univ,
    share_0, share_1, share_2, share_3, share_4]
  beta_reduce
  rw [arrAt_zero, arrAt_zero, arrAt_zero, arrAt_zero, arrAt_zero]
  iintro ⟨H0, H3, H4, H5⟩
  ihave H0 := (pointsTo_share (PosShare.mem_left_op_right fullShare)).1 $$ H0
  icases H0 with ⟨H0l, H0r⟩
  isplitl [H0l]; · iexact H0l
  isplitl [H0r]; · iexact H0r
  isplitl [H3]; · iexact H3
  isplitl [H4]; · iexact H4
  iexact H5

/-! ## The run and the frame -/

set_option backward.isDefEq.respectTransparency.types false in
/-- From any memory with zero counters every weakly fair execution of @main terminates, every window's array at what the
    write-backs left and every other buffer of @main as the region found it. -/
theorem run_main : θ_run defs (onTc (τ := τ) (main (F := F))) (s₀ m ρ) (Pipeline.FramePost cfgs (dats m) 0 (V m)) :=
  Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := hmain m Variants.none) (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr; · iempintro
                       iexact H)
    (hin := fun c => by rw [inv_eq]; iintro ⟨-, H⟩; iexact H)
    (hout := fun c => by rw [inv_eq]; iintro H; isplitr; · iempintro
                         iexact H)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

/-- The frame: @main runs to the end, nothing faults, and the argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c =>
    ((h c).2 main_arg0 (Pipeline.mem_restRefs_of main_arg0 (by decide) (by decide))).trans (V_main_arg0 m c)) (run_main m ρ)

end Cert.Kernel.Region

end
-- ==== Proof.RegionIdeal.lean ====
/-
  The frame of the program's one kernel region, for any float instance.

  @main computes, by host operations, the bf16 copy of the input matrix, the column of squared row norms and the same
  values as a row, and then runs the kernel on a 4 x 4 grid: at point (i, j) the body reads row block i and row block j of
  the bf16 copy (two windows on ONE array), block i of the column, block j of the row, and stores one 1024 x 1024 block
  of the result. Because two input windows read one array, that array's full share is dealt between them in halves; every
  other array is held whole. Nothing is carried between grid points and the body uses no scratch, so the invariant of
  the region is the (empty) rest of the scoped buffers. The run ends with every window's array at what the write-backs
  left and every other buffer of @main, the argument among them, as the region found it.
-/
import proofs.«122050_j67370857005321_1_alg».proof.Proof.Gen.KernelIdeal.Launch
import proofs.«122050_j67370857005321_1_alg».proof.Proof.Gen.KernelIdeal.Skeleton
import proofs.«122050_j67370857005321_1_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the six host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes the argument: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not: where it is not
    fetched its block index has not moved since the point before. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body -/

/-- The whole 1024 x 1024 buffer, the whole column and the whole row: the rectangles of the body's loads and store. -/
abbrev rSq : Rect S1024x1024 := Rect.unit (s := S1024x1024) ![0, 0] S1024x1024.size inb_S1024x1024_S1024x1024_0_0
abbrev rCol : Rect S1024x1 := Rect.unit (s := S1024x1) ![0, 0] S1024x1.size inb_S1024x1_S1024x1_0_0
abbrev rRow : Rect S1x1024 := Rect.unit (s := S1x1024) ![0, 0] S1x1024.size inb_S1x1024_S1x1024_0_0

/-- What the body leaves in the output window's buffer: its one store, of the body's arithmetic on the four loaded blocks. -/
def out0_4 (x0 x1 : Vec F S1024x1024 .bf16) (x2 : Vec F S1024x1 .f32) (x3 : Vec F S1x1024 .f32) : Vec F S1024x1024 .f32 :=
  View.canon [⟨rSq, k0_pay1 (View.ld x0 rSq) (View.ld x1 rSq) (View.ld x2 rCol) (View.ld x3 rRow)⟩]

/-- The one store covers the buffer. -/
theorem cover0_4 (p0 : Vec F S1024x1024 .f32) (y : S1024x1024.Idx) :
    ∃ pc ∈ ([⟨rSq, p0⟩] : List (View.Piece (Elt F) S1024x1024 .f32)), y ∈ pc.1.set :=
  View.cover_of_tiled [⟨rSq, p0⟩] S1024x1024.size (by rfl) y

set_option maxHeartbeats 1000000 in
/-- The body on whole staging memrefs, the four inputs' at read contents and the output's at anything, runs to the
    continuation holding the inputs' as they were and the output's at `out0_4` of the inputs'. -/
theorem sound_kernel (c : Dev nD) (E : Set ℕ) (i : grid0.Coords)
    (arg2 : Memref sig .tc .vmem S1024x1024 .bf16) (harg2 : arg2.IsWhole) (arg3 : Memref sig .tc .vmem S1024x1024 .bf16) (harg3 : arg3.IsWhole)
    (arg4 : Memref sig .tc .vmem S1024x1 .f32) (harg4 : arg4.IsWhole) (arg5 : Memref sig .tc .vmem S1x1024 .f32) (harg5 : arg5.IsWhole)
    (arg6 : Memref sig .tc .vmem S1024x1024 .f32) (harg6 : arg6.IsWhole)
    (x0 x1 : Vec F S1024x1024 .bf16) (x2 : Vec F S1024x1 .f32) (x3 : Vec F S1x1024 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (out0_4 x0 x1 x2 x3)) -∗ K ⟨⟩))
      ⊢ wp frame (wpE (defs₀ (F := F)) Variants.none c none) E (cc0__gaussian_kernel_body i arg2 harg2 arg3 harg3 arg4 harg4 arg5 harg5 arg6 harg6) K := by
  simp only [cc0__gaussian_kernel_body_eq_skeleton]; unfold cc0__gaussian_kernel_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The proof data -/

/-- On core `c`: the arrays as the region finds them; after the body at point `t` each input's buffer still at its block
    and the output's at the body's result on the four blocks; the invariant the rest of the scoped buffers; the array the
    two row-block windows share held in halves, one each; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (iblk m c 0 t) (iblk m c 1 t) (iblk m c 2 t) (iblk m c 3 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = out0_4 (iblk m c 0 t) (iblk m c 1 t) (iblk m c 2 t) (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' buffers hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact sound_body m c t

/-! ## The arrays at entry: one array dealt to two windows -/

theorem arrAt_zero (c : Dev nD) (w : Fin cfg0.W) : (dats m 0 c).arrAt w 0 = V m c (Pipeline.arrRef spec0 w) := rfl
theorem inv_eq (c : Dev nD) (t : Fin (cfg0.N + 1)) :
    (dats m 0 c).Φ t = Pipeline.scopedRest (Ix := Unit) (Name := ℕ) (U := UR sig nD τ) (Lvl := ℕ) (Val := Elt F) spec0 c := rfl

theorem share_0 (c : Dev nD) : (dats m 0 c).share 0 = fullShare.left := rfl
theorem share_1 (c : Dev nD) : (dats m 0 c).share 1 = fullShare.right := rfl
theorem share_2 (c : Dev nD) : (dats m 0 c).share 2 = fullShare := rfl
theorem share_3 (c : Dev nD) : (dats m 0 c).share 3 = fullShare := rfl
theorem share_4 (c : Dev nD) : (dats m 0 c).share 4 = fullShare := rfl

/-- The distinct buffers behind the five windows' arrays, listed: the bf16 copy, the column, the row and the result. -/
theorem arrBufs_eq (c : Dev nD) :
    (Pipeline.arrBufs (Ix := Unit) (Name := ℕ) (U := UR sig nD τ) (Lvl := ℕ) spec0 c (V m c) : sProp 𝕄)
      = iprop((((c : Thread nD τ).loc main_v0) ↦{fullShare} V m c main_v0) ∗ (((c : Thread nD τ).loc main_v3) ↦{fullShare} V m c main_v3)
          ∗ (((c : Thread nD τ).loc main_v4) ↦{fullShare} V m c main_v4) ∗ (((c : Thread nD τ).loc main_v5) ↦{fullShare} V m c main_v5)) := by
  unfold Pipeline.arrBufs
  exact bigSep_eq_bigSepL_of_eq [main_v0, main_v3, main_v4, main_v5] (by decide) (by decide) _

/-- The four buffers behind the five windows' arrays, each whole at the full share at its entry contents, make the
    windows' holdings at entry: the bf16 copy's full share splits into the two halves the row-block windows hold. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq]
  unfold Dat.arrays
  rw [bigSep_W0]
  rw [(arr_whole0 0).set_eq_univ, (arr_whole0 2).set_eq_univ, (arr_whole0 3).set_eq_univ, (arr_whole0 4).set_eq_univ,
    share_0, share_1, share_2, share_3, share_4]
  beta_reduce
  rw [arrAt_zero, arrAt_zero, arrAt_zero, arrAt_zero, arrAt_zero]
  iintro ⟨H0, H3, H4, H5⟩
  ihave H0 := (pointsTo_share (PosShare.mem_left_op_right fullShare)).1 $$ H0
  icases H0 with ⟨H0l, H0r⟩
  isplitl [H0l]; · iexact H0l
  isplitl [H0r]; · iexact H0r
  isplitl [H3]; · iexact H3
  isplitl [H4]; · iexact H4
  iexact H5

/-! ## The run and the frame -/

set_option backward.isDefEq.respectTransparency.types false in
/-- From any memory with zero counters every weakly fair execution of @main terminates, every window's array at what the
    write-backs left and every other buffer of @main as the region found it. -/
theorem run_main : θ_run defs (onTc (τ := τ) (main (F := F))) (s₀ m ρ) (Pipeline.FramePost cfgs (dats m) 0 (V m)) :=
  Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := hmain m Variants.none) (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr; · iempintro
                       iexact H)
    (hin := fun c => by rw [inv_eq]; iintro ⟨-, H⟩; iexact H)
    (hout := fun c => by rw [inv_eq]; iintro H; isplitr; · iempintro
                         iexact H)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

/-- The frame: @main runs to the end, nothing faults, and the argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c =>
    ((h c).2 main_arg0 (Pipeline.mem_restRefs_of main_arg0 (by decide) (by decide))).trans (V_main_arg0 m c)) (run_main m ρ)

end Cert.KernelIdeal.Region

end
-- ==== Proof.LibRowOps.lean ====
/-
  Row-wise operations read at an index, at the ideal instance, for a matrix of any number of rows: a reduction along
  the columns (a sum, a maximum) read at a row is the sum, or the fold of `max`, over that row's entries; a vector of
  row values made a column and that column broadcast along the rows read at (row, column) are the row's value; and a
  matrix product into a zero accumulator read at (row, column) is the sum over the contracted axis of the row's entries
  against the column's. None of them depends on the other rows, which is why a kernel may cut the rows into blocks.
-/
import Idealize.ShloMosaic.PureOps.Ideal.Laws
import Idealize.ShloMosaic.Lib.ValueLayout

noncomputable section

open scoped BigOperators

namespace Cert.RowOps

open Idealize.ShloMosaic Idealize.ShloMosaic.ValueIdx

variable {R N K : ℕ} {φ φ₁ φ₂ : FTy} {α : Type}

/-- Over row `r` of an `R × N` matrix reduced along its columns, the source index with column `k` put back is
    `(r, k)`. -/
theorem lift_row (h : (⟨2, ![R, N]⟩ : Shape).Reduces [(1 : Fin 2)] ⟨1, ![R]⟩) (r : Fin R) (k : Fin N) :
    h.lift (ix1 r) k = ix2 r k := by
  funext c
  apply Fin.ext
  match c with
  | ⟨0, _⟩ => rfl
  | ⟨1, _⟩ => rfl

/-- A sum along the columns, read at row `r`: the sum of that row's entries. -/
theorem rowSum_apply (src : FVec Ideal ⟨2, ![R, N]⟩ φ) (acc : BitVec φ.bits)
    (h : (⟨2, ![R, N]⟩ : Shape).Reduces [(1 : Fin 2)] ⟨1, ![R]⟩) (hφ : FKind.Formats φ)
    (hacc : acc = FKind.add.neutral φ hφ) (r : Fin R) :
    multiReduction .add [(1 : Fin 2)] ⟨1, ![R]⟩ src acc h hφ hacc (ix1 r) = ∑ k : Fin N, src (ix2 r k) :=
  (Ideal.multiReduction_add_single src acc h hφ hacc (ix1 r)).trans
    (Finset.sum_congr rfl fun k _ => congrArg src (lift_row h r k))

/-- A maximum along the columns, read at row `r`: the fold of `max`, from the accumulator's value, over that row's
    entries. -/
theorem rowMax_apply (src : FVec Ideal ⟨2, ![R, N]⟩ φ) (acc : BitVec φ.bits)
    (h : (⟨2, ![R, N]⟩ : Shape).Reduces [(1 : Fin 2)] ⟨1, ![R]⟩) (hφ : FKind.Formats φ)
    (hacc : acc = FKind.maximumf.neutral φ hφ) (r : Fin R) :
    multiReduction .maximumf [(1 : Fin 2)] ⟨1, ![R]⟩ src acc h hφ hacc (ix1 r)
      = (Finset.univ : Finset (Fin N)).fold max (Ideal.ofBits φ acc) (fun k => src (ix2 r k)) := by
  have e : src ∘ h.lift (ix1 r) = fun k : Fin N => src (ix2 r k) := funext fun k => congrArg src (lift_row h r k)
  rw [Ideal.multiReduction_maximumf_single, e]
  rfl

/-- A vector of `R` values made an `R × 1` column reads, at `(r, u)`, the value at `r`. -/
theorem shapeCast_a_a1_apply (x : (⟨1, ![R]⟩ : Shape).Idx → α) (h : (⟨1, ![R]⟩ : Shape).ShapeCasts ⟨2, ![R, 1]⟩)
    (r : Fin R) (u : Fin 1) : shapeCast ⟨2, ![R, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- An `R × 1` column broadcast along `N` columns reads, at `(r, c)`, the column's entry at row `r`. -/
theorem broadcastTo_a1_ab_apply (v : (⟨2, ![R, 1]⟩ : Shape).Idx → α) (h : (⟨2, ![R, 1]⟩ : Shape).Broadcasts ⟨2, ![R, N]⟩)
    (r : Fin R) (c : Fin N) : broadcastTo ⟨2, ![R, N]⟩ v h (ix2 r c) = v (ix2 r (0 : Fin 1)) := by
  refine broadcastTo_apply v h (ix2 r c) (ix2 r (0 : Fin 1)) fun ax => ?_
  match ax with
  | ⟨0, _⟩ =>
    show r.val = if R = 1 then 0 else r.val
    split
    · have := r.isLt; omega
    · rfl
  | ⟨1, _⟩ =>
    show (0 : ℕ) = if (1 : ℕ) = 1 then 0 else c.val
    rw [if_pos rfl]

/-- The two together: a vector of row values, made a column and broadcast along the columns, reads the row's value. -/
theorem rowSplat_apply (x : (⟨1, ![R]⟩ : Shape).Idx → α) (hc : (⟨1, ![R]⟩ : Shape).ShapeCasts ⟨2, ![R, 1]⟩)
    (hb : (⟨2, ![R, 1]⟩ : Shape).Broadcasts ⟨2, ![R, N]⟩) (r : Fin R) (c : Fin N) :
    broadcastTo ⟨2, ![R, N]⟩ (shapeCast ⟨2, ![R, 1]⟩ x hc) hb (ix2 r c) = x (ix1 r) := by
  rw [broadcastTo_a1_ab_apply, shapeCast_a_a1_apply]

/-- A matrix index whose two coordinates are known is `ix2` of them. -/
theorem eq_ix2_of_val {n0 n1 : ℕ} (i : (⟨2, ![n0, n1]⟩ : Shape).Idx) (a : Fin n0) (b : Fin n1)
    (h0 : (i (0 : Fin 2)).val = a.val) (h1 : (i (1 : Fin 2)).val = b.val) : i = ix2 a b := by
  funext c
  apply Fin.ext
  match c with
  | ⟨0, _⟩ => exact h0
  | ⟨1, _⟩ => exact h1

/-- With no batch axes and the rows the left operand's one free axis, the left index's row is the result index's row,
    whatever the contraction position. -/
theorem lhsIdx_row (d : DotDims ⟨2, ![R, K]⟩ ⟨2, ![K, N]⟩ ⟨2, ![R, N]⟩)
    (hln : d.lhsNonContracting = [(0 : Fin 2)]) (hlb : d.lhsBatch = [])
    (j : (⟨2, ![R, N]⟩ : Shape).Idx) (q : d.contr.Idx) : (d.lhsIdx j q (0 : Fin 2)).val = (j (0 : Fin 2)).val := by
  have hnb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hnb, dif_pos hn]
  simp only [Fin.val_cast]
  have key : ∀ (p p' : ℕ) (hp : p < 2) (hp' : p' < 2), p = p' → (j ⟨p, hp⟩).val = (j ⟨p', hp'⟩).val :=
    fun p p' hp hp' e => by subst e; rfl
  exact key _ _ _ _ (by simp [hlb, hln])

/-- With no batch axes, the rows the left operand's one free axis and the columns the right operand's, the right index's
    column is the result index's column, whatever the contraction position. -/
theorem rhsIdx_col (d : DotDims ⟨2, ![R, K]⟩ ⟨2, ![K, N]⟩ ⟨2, ![R, N]⟩)
    (hln : d.lhsNonContracting = [(0 : Fin 2)]) (hrn : d.rhsNonContracting = [(1 : Fin 2)])
    (hlb : d.lhsBatch = []) (hrb : d.rhsBatch = [])
    (j : (⟨2, ![R, N]⟩ : Shape).Idx) (q : d.contr.Idx) : (d.rhsIdx j q (1 : Fin 2)).val = (j (1 : Fin 2)).val := by
  have hnb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hnb, dif_pos hn]
  simp only [Fin.val_cast]
  have key : ∀ (p p' : ℕ) (hp : p < 2) (hp' : p' < 2), p = p' → (j ⟨p, hp⟩).val = (j ⟨p', hp'⟩).val :=
    fun p p' hp hp' e => by subst e; rfl
  exact key _ _ _ _ (by simp [hlb, hln, hrn])

/-- A plain matrix product (`R × K` by `K × N`, the left operand's columns contracted against the right operand's rows,
    no batch axes) into the zero accumulator, read at `(r, j)`: the sum over `k` of row `r` of the left operand against
    column `j` of the right. -/
theorem matmul_row_apply (d : DotDims ⟨2, ![R, K]⟩ ⟨2, ![K, N]⟩ ⟨2, ![R, N]⟩)
    (hlc : d.lhsContracting = [(1 : Fin 2)]) (hrc : d.rhsContracting = [(0 : Fin 2)])
    (hln : d.lhsNonContracting = [(0 : Fin 2)]) (hrn : d.rhsNonContracting = [(1 : Fin 2)])
    (hlb : d.lhsBatch = []) (hrb : d.rhsBatch = [])
    (prec : Option ContractPrecision) (lhs : FVec Ideal ⟨2, ![R, K]⟩ φ₁) (rhs : FVec Ideal ⟨2, ![K, N]⟩ φ₂)
    (r : Fin R) (j : Fin N) :
    FloatOps.matmul d prec lhs rhs (constant ⟨2, ![R, N]⟩ .f32 0x00000000#32) (ix2 r j)
      = ∑ k : Fin K, lhs (ix2 r k) * rhs (ix2 k j) := by
  have hr : d.contr.rank = 1 := by rw [d.rank_contr, hlc]; rfl
  have hs : d.contr.size ⟨0, by omega⟩ = K := by
    have h0 : 0 < d.lhsContracting.length := by rw [hlc]; exact Nat.one_pos
    have e1 : d.lhsContracting[0] = (1 : Fin 2) := by simp [hlc]
    exact (d.size_contr 0 h0).trans (by rw [e1]; rfl)
  rw [Ideal.matmul_constant_zero_apply]
  refine ((contrEquiv1 d K hr hs).symm.sum_comp _).symm.trans (Finset.sum_congr rfl fun k _ => ?_)
  have hL : d.lhsIdx (ix2 r j) ((contrEquiv1 d K hr hs).symm k) = ix2 r k :=
    eq_ix2_of_val _ r k (lhsIdx_row d hln hlb _ _)
      ((d.lhsIdx_val_of_single hlc _ _).trans (contrEquiv1_symm_val d K hr hs k))
  have hR : d.rhsIdx (ix2 r j) ((contrEquiv1 d K hr hs).symm k) = ix2 k j :=
    eq_ix2_of_val _ k j ((d.rhsIdx_val_of_single hrc _ _).trans (contrEquiv1_symm_val d K hr hs k))
      (rhsIdx_col d hln hrn hlb hrb _ _)
  show lhs (d.lhsIdx (ix2 r j) ((contrEquiv1 d K hr hs).symm k)) * rhs (d.rhsIdx (ix2 r j) ((contrEquiv1 d K hr hs).symm k)) = _
  rw [hL, hR]

end Cert.RowOps

end
-- ==== Proof.PayGauss.lean ====
/-
  The kernel body's arithmetic read at one index of its 1024 x 1024 block. The body loads two 1024 x 1024 row blocks a, b,
  a column p of squared norms and a row q of squared norms, and computes exp(max((p + q) - 2 * (a contracted with b along
  the columns of both), 0) * (-1/2)). Read at (i, j): the column broadcast gives p_i, the row broadcast gives q_j, and the
  product into the zero accumulator is the sum over k of a[i,k] * b[j,k], since both operands are contracted along axis 1
  and the right operand's free axis 0 is the result's axis 1. Every operation here is taken at the ideal instance, where
  it is the extended-real operation, so the statement is one equation of extended reals.
-/
import proofs.«122050_j67370857005321_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value
import proofs.«122050_j67370857005321_1_alg».proof.Proof.LibRowOps

noncomputable section

open scoped BigOperators

namespace Cert.PayGauss

open Idealize.ShloMosaic Idealize.ShloMosaic.ValueIdx Cert.KernelIdeal

/-- On the left operand's free axis 0 the left index is the result index's axis 0. -/
theorem lhs_axis0 (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl

/-- On the left operand's contracted axis 1 the left index is the contraction coordinate. -/
theorem lhs_axis1 (i : S1024x1024.Idx) (q : dot_S1024x1024_S1024x1024_S1024x1024_1_1_0_0_n_n.contr.Idx) :
    (dot_S1024x1024_S1024x1024_S1024x1024_1_1_0_0_n_n.lhsIdx i q 1).val = (q ⟨0, by decide⟩).val :=
  dot_S1024x1024_S1024x1024_S1024x1024_1_1_0_0_n_n.lhsIdx_val_of_single rfl i q

/-- On the right operand's free axis 0 the right index is the result index's axis 1. -/
theorem rhs_axis0 (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl

/-- On the right operand's contracted axis 1 the right index is the contraction coordinate. -/
theorem rhs_axis1 (i : S1024x1024.Idx) (q : dot_S1024x1024_S1024x1024_S1024x1024_1_1_0_0_n_n.contr.Idx) :
    (dot_S1024x1024_S1024x1024_S1024x1024_1_1_0_0_n_n.rhsIdx i q 1).val = (q ⟨0, by decide⟩).val :=
  dot_S1024x1024_S1024x1024_S1024x1024_1_1_0_0_n_n.rhsIdx_val_of_single rfl i q

/-- The product of the two row blocks, both contracted along their columns, into the zero accumulator, read at (i, j):
    the sum over k of a[i,k] * b[j,k]. -/
theorem matmul_rows_apply (a b : FVec Ideal S1024x1024 .bf16) (i j : Fin 1024) :
    FloatOps.matmul dot_S1024x1024_S1024x1024_S1024x1024_1_1_0_0_n_n none a b (constant (F := Ideal) S1024x1024 .f32 0x00000000#32) (ix2 i j)
      = ∑ k : Fin 1024, a (ix2 i k) * b (ix2 j k) := by
  rw [Ideal.matmul_constant_zero_apply, ← Equiv.sum_comp (contrEquiv1 dot_S1024x1024_S1024x1024_S1024x1024_1_1_0_0_n_n 1024 rfl rfl).symm]
  refine Finset.sum_congr rfl fun k _ => ?_
  have hk := contrEquiv1_symm_val dot_S1024x1024_S1024x1024_S1024x1024_1_1_0_0_n_n 1024 rfl rfl k
  have el : dot_S1024x1024_S1024x1024_S1024x1024_1_1_0_0_n_n.lhsIdx (ix2 i j) ((contrEquiv1 dot_S1024x1024_S1024x1024_S1024x1024_1_1_0_0_n_n 1024 rfl rfl).symm k) = ix2 i k := funext fun c => Fin.ext (by
    match c with
    | ⟨0, _⟩ => exact lhs_axis0 _ _
    | ⟨1, _⟩ => exact (lhs_axis1 _ _).trans hk)
  have er : dot_S1024x1024_S1024x1024_S1024x1024_1_1_0_0_n_n.rhsIdx (ix2 i j) ((contrEquiv1 dot_S1024x1024_S1024x1024_S1024x1024_1_1_0_0_n_n 1024 rfl rfl).symm k) = ix2 j k := funext fun c => Fin.ext (by
    match c with
    | ⟨0, _⟩ => exact rhs_axis0 _ _
    | ⟨1, _⟩ => exact (rhs_axis1 _ _).trans hk)
  rw [el, er]

/-- The body's result at (i, j) of its 1024 x 1024 block: from the two 1024 x 1024 row blocks a, b, the column p of squared
    norms and the row q of squared norms, exp(max((p_i + q_j) - 2 * sum_k a[i,k] * b[j,k], 0) * (-1/2)), the three float
    words kept as the extended reals their patterns denote. -/
theorem pay_apply (a b : Vec Ideal S1024x1024 .bf16) (p : Vec Ideal S1024x1 .f32) (q : Vec Ideal S1x1024 .f32) (i j : Fin 1024) :
    Cert.KernelIdeal.Gen.k0_pay1 (F := Ideal) a b p q (ix2 i j)
      = Ideal.exp (max ((p (ix2 i (0 : Fin 1)) + q (ix2 (0 : Fin 1) j))
            - Ideal.ofBits .f32 0x40000000#32 * ∑ k : Fin 1024, a (ix2 i k) * b (ix2 j k))
          (Ideal.ofBits .f32 0x00000000#32) * Ideal.ofBits .f32 0xBF000000#32) := by
  unfold Gen.k0_pay1
  rw [shapeCast_self, shapeCast_self, shapeCast_self, shapeCast_self]
  show Ideal.exp (max ((broadcastTo S1024x1024 p Gen.broadcasts_S1024x1_S1024x1024 (ix2 i j)
            + broadcastTo S1024x1024 q Gen.broadcasts_S1x1024_S1024x1024 (ix2 i j))
          - Ideal.ofBits .f32 0x40000000#32
            * FloatOps.matmul dot_S1024x1024_S1024x1024_S1024x1024_1_1_0_0_n_n none a b (constant (F := Ideal) S1024x1024 .f32 0x00000000#32) (ix2 i j))
        (Ideal.ofBits .f32 0x00000000#32) * Ideal.ofBits .f32 0xBF000000#32) = _
  rw [Cert.RowOps.broadcastTo_a1_ab_apply, broadcastTo_1b_ab_apply, matmul_rows_apply]

end Cert.PayGauss

end
-- ==== Proof.SqDist.lean ====
/-
  The Gaussian kernel matrix of the rows of a 4096 x 1024 matrix X, as one function of X on the extended reals:
  the entry at (r, c) is exp(-(1/2) * max(|x_r|^2 + |x_c|^2 - 2 <x_r, x_c>, 0)), where |x_r|^2 is the sum of the
  squares of row r (started from the zero word) and <x_r, x_c> the sum over k of X[r, k] * X[c, k].
  The three float words that occur (0, 2 and -1/2) are kept as the extended reals their patterns denote.
-/
import Idealize.ShloMosaic.PureOps.Ideal.Laws
import Idealize.ShloMosaic.Lib.ValueIdx

noncomputable section

open scoped BigOperators

namespace Cert.SqDist

open Idealize.ShloMosaic Idealize.ShloMosaic.ValueIdx

/-- The squared norm of row `r`: the zero word plus the sum of the squares of the row's 1024 entries. -/
def sqNorm (X : (⟨2, ![4096, 1024]⟩ : Shape).Idx → EReal) (r : Fin 4096) : EReal :=
  Ideal.ofBits .f32 0x00000000#32 + ∑ k : Fin 1024, X (ix2 r k) * X (ix2 r k)

/-- The inner product of rows `r` and `c`. -/
def inner (X : (⟨2, ![4096, 1024]⟩ : Shape).Idx → EReal) (r c : Fin 4096) : EReal :=
  ∑ k : Fin 1024, X (ix2 r k) * X (ix2 c k)

/-- The squared distance of rows `r` and `c` by the polarization identity, clamped below at the zero word. -/
def dist2 (X : (⟨2, ![4096, 1024]⟩ : Shape).Idx → EReal) (r c : Fin 4096) : EReal :=
  max ((sqNorm X r + sqNorm X c) - Ideal.ofBits .f32 0x40000000#32 * inner X r c) (Ideal.ofBits .f32 0x00000000#32)

/-- The Gaussian kernel entry at (r, c): the exponential of the clamped squared distance times the word of -1/2. -/
def entry (X : (⟨2, ![4096, 1024]⟩ : Shape).Idx → EReal) (r c : Fin 4096) : EReal :=
  Ideal.exp (dist2 X r c * Ideal.ofBits .f32 0xBF000000#32)

/-- The whole 4096 x 4096 result. -/
def gauss (X : (⟨2, ![4096, 1024]⟩ : Shape).Idx → EReal) : (⟨2, ![4096, 4096]⟩ : Shape).Idx → EReal :=
  fun i => entry X (i 0) (i 1)

theorem gauss_ix2 (X : (⟨2, ![4096, 1024]⟩ : Shape).Idx → EReal) (r c : Fin 4096) :
    gauss X (ix2 r c) = entry X r c := rfl

end Cert.SqDist

end
-- ==== Proof.GaussValue.lean ====
/-
  The value of the kernel's run at the ideal instance: the result array ends as the Gaussian kernel matrix of the
  specification applied to the input.

  The region finds three staged arrays: the bf16 copy of the input, which on the extended reals is the input itself; the
  column of the rows' squared norms; and the same values laid out as a row. At grid point (i, j) the body reads rows
  1024 i .. 1024 i + 1023 and rows 1024 j .. 1024 j + 1023 of the input, the matching 1024 entries of the column and of
  the row, and stores exp(max((n_r + n_c) - 2 <x_r, x_c>, 0) * (-1/2)) for r in the first range and c in the second: block
  (i, j) of the specification's matrix. The sixteen blocks tile the 4096 x 4096 result.
-/
import proofs.«122050_j67370857005321_1_alg».proof.Proof.RegionIdeal
import proofs.«122050_j67370857005321_1_alg».proof.Proof.PayGauss
import proofs.«122050_j67370857005321_1_alg».proof.Proof.SqDist
import Idealize.ShloMosaic.Lib.Pipeline.Value
import Idealize.ShloMosaic.Lib.StableHlo.Run
import Idealize.ShloMosaic.Lib.ValueLayout

set_option maxRecDepth 16384

noncomputable section

open scoped BigOperators

namespace Cert.KernelIdeal.GaussValue

open Cert.KernelIdeal Cert.KernelIdeal.Gen Cert.KernelIdeal.Region
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

/-! ## The staged arrays as the region finds them -/

/-- The input matrix on core `c`. -/
abbrev inp (c : Dev nD) : S4096x1024.Idx → EReal := m ((c : Thread nD τ).loc main_arg0)

/-- The column of the rows' squared norms, as the host operations compute it from a matrix `x`. -/
def sqCol (x : S4096x1024.Idx → EReal) : S4096x1.Idx → EReal :=
  broadcastInDim S4096x1 ![0] bcast_S4096_S4096x1_0
    (Host.reduceAdd (F := Ideal) (mulf x x) (constant S_ .f32 0x00000000#32) reducesTo_S4096x1024_S4096_d1 h_S_)

/-- The bf16 copy of the input is the input: a change of format is the identity on the extended reals. -/
theorem v0_eq (c : Dev nD) : (V m c main_v0 : S4096x1024.Idx → EReal) = inp m c := by
  dsimp only [V, hostOps0]; after_results; rfl

theorem v3_eq (c : Dev nD) : (V m c main_v3 : S4096x1.Idx → EReal) = sqCol (inp m c) := by
  dsimp only [V, hostOps0]; after_results; rfl

theorem v4_eq (c : Dev nD) :
    (V m c main_v4 : S1x4096.Idx → EReal) = shapeCast S1x4096 (sqCol (inp m c)) shapeCasts_S4096x1_S1x4096 := by
  dsimp only [V, hostOps0]; after_results; rfl

/-- The column at row `r` is the squared norm of row `r`. -/
theorem sqCol_apply (x : S4096x1024.Idx → EReal) (r : Fin 4096) (u : Fin 1) :
    sqCol x (ix2 r u) = Cert.SqDist.sqNorm x r := by
  unfold sqCol
  rw [broadcastInDim_apply _ bcast_S4096_S4096x1_0 _ (ix2 r u) (ix1 r) (fun a => match a with
    | ⟨0, _⟩ => by show r.val = if (4096 : Nat) = 1 then 0 else r.val; rw [if_neg (by decide)])]
  simp only [Host.reduceAdd, Ideal.hostReduceAdd_def]
  rw [Ideal.hostReduceAdd_single reducesTo_S4096x1024_S4096_d1 (by decide)]
  unfold Cert.SqDist.sqNorm
  refine congrArg₂ (· + ·) rfl (Finset.sum_congr rfl fun k _ => ?_)
  have e : (by decide : S4096x1024.Reduces [(1 : Fin 2)] S4096).lift (ix1 r) k = ix2 r k :=
    funext fun a => Fin.ext (by match a with | ⟨0, _⟩ => rfl | ⟨1, _⟩ => rfl)
  rw [e]; rfl

/-- The same values laid out as a row: at column `r`, the squared norm of row `r`. -/
theorem sqRow_apply (x : S4096x1024.Idx → EReal) (u : Fin 1) (r : Fin 4096) :
    shapeCast S1x4096 (sqCol x) shapeCasts_S4096x1_S1x4096 (ix2 u r) = Cert.SqDist.sqNorm x r := by
  rw [shapeCast_apply (sqCol x) shapeCasts_S4096x1_S1x4096 (ix2 u r) (ix2 r (0 : Fin 1)) (by
    have hu : u.val = 0 := by omega
    rw [Shape.rowMajor_val_two, Shape.rowMajor_val_two]
    show r.val * 1 + 0 = u.val * 4096 + r.val
    omega)]
  exact sqCol_apply x r 0

/-! ## One element of one block -/

/-- If the body's four blocks hold rows `r` .. and `cc` .. of a matrix `x` and the matching squared norms, its result at
    (i, j) is the specification's entry at (r, cc). -/
theorem point_eq (a b : Vec Ideal S1024x1024 .bf16) (p : Vec Ideal S1024x1 .f32) (q : Vec Ideal S1x1024 .f32)
    (x : S4096x1024.Idx → EReal) (r cc : Fin 4096) (i j : Fin 1024)
    (ha : ∀ k : Fin 1024, a (ix2 i k) = x (ix2 r k)) (hb : ∀ k : Fin 1024, b (ix2 j k) = x (ix2 cc k))
    (hp : p (ix2 i (0 : Fin 1)) = Cert.SqDist.sqNorm x r) (hq : q (ix2 (0 : Fin 1) j) = Cert.SqDist.sqNorm x cc) :
    k0_pay1 (F := Ideal) a b p q (ix2 i j) = Cert.SqDist.entry x r cc := by
  rw [Cert.PayGauss.pay_apply, hp, hq]
  unfold Cert.SqDist.entry Cert.SqDist.dist2 Cert.SqDist.inner
  simp only [ha, hb]

/-! ## The blocks -/

theorem hz : (![0, 0] : Fin 2 → Nat) = fun _ => 0 := funext fun a => by fin_cases a <;> rfl

/-- The printed index maps over the grid: the two row-block windows and the column and row windows follow the output
    block's two coordinates, which range over 0 .. 3. -/
theorem idx_facts : ∀ t : Fin cfg0.N,
    win0_0.index t (0 : Fin 2) = win0_4.index t (0 : Fin 2) ∧ win0_0.index t (1 : Fin 2) = 0
    ∧ win0_1.index t (0 : Fin 2) = win0_4.index t (1 : Fin 2) ∧ win0_1.index t (1 : Fin 2) = 0
    ∧ win0_2.index t (0 : Fin 2) = win0_4.index t (0 : Fin 2) ∧ win0_2.index t (1 : Fin 2) = 0
    ∧ win0_3.index t (0 : Fin 2) = 0 ∧ win0_3.index t (1 : Fin 2) = win0_4.index t (1 : Fin 2)
    ∧ win0_4.index t (0 : Fin 2) ≤ 3 ∧ win0_4.index t (1 : Fin 2) ≤ 3 :=
  (by decide +kernel : ∀ t : Fin grid0.N, _)

/-- Every block of the result is some point's. -/
theorem idx_onto : ∀ (q0 : Fin 4) (q1 : Fin 4), ∃ t : Fin cfg0.N, win0_4.index t = ![q0.val, q1.val] :=
  (by decide +kernel : ∀ (q0 : Fin 4) (q1 : Fin 4), ∃ t : Fin grid0.N, win0_4.index t = ![q0.val, q1.val])

/-- What point `t` writes back is block `t` of the specification's matrix of the input. -/
theorem flushed_eq (c : Dev nD) (t : Fin cfg0.N) :
    (dats m 0 c).flushed 4 t = ((cfg0.win 4).blk t).view.read (Elt Ideal) (Cert.SqDist.gauss (inp m c)) := by
  show (cfg0.win 4).cut (grid0.coords t) ((dats m 0 c).after 4 t) = _
  rw [after0_4]
  unfold out0_4
  rw [View.canon_unit_zero hz]
  simp only [View.ld_unit_zero (S := S1024x1024) hz, View.ld_unit_zero (S := S1024x1) hz, View.ld_unit_zero (S := S1x1024) hz]
  obtain ⟨e00, e01, e10, e11, e20, e21, e30, e31, b0, b1⟩ := idx_facts t
  funext y
  have hy0 : (y 0).val < 1024 := (y 0).isLt
  have hy1 : (y 1).val < 1024 := (y 1).isLt
  have hyx : y = ix2 (⟨(y 0).val, hy0⟩ : Fin 1024) (⟨(y 1).val, hy1⟩ : Fin 1024) :=
    funext fun a => Fin.ext (by match a with | ⟨0, _⟩ => rfl | ⟨1, _⟩ => rfl)
  show k0_pay1 (F := Ideal) (iblk m c 0 t) (iblk m c 1 t) (iblk m c 2 t) (iblk m c 3 t) y
    = Cert.SqDist.gauss (inp m c) (((cfg0.win 4).blk t).view.emb y)
  have hr : win0_4.index t (0 : Fin 2) * 1024 + (y 0).val < 4096 := by omega
  have hc : win0_4.index t (1 : Fin 2) * 1024 + (y 1).val < 4096 := by omega
  have hemb : ((cfg0.win 4).blk t).view.emb y
      = ix2 (⟨win0_4.index t (0 : Fin 2) * 1024 + (y 0).val, hr⟩ : Fin 4096) (⟨win0_4.index t (1 : Fin 2) * 1024 + (y 1).val, hc⟩ : Fin 4096) := by
    funext a; apply Fin.ext
    match a with
    | ⟨0, _⟩ => show win0_4.index t (0 : Fin 2) * 1024 + 1 * (y 0).val = win0_4.index t (0 : Fin 2) * 1024 + (y 0).val; omega
    | ⟨1, _⟩ => show win0_4.index t (1 : Fin 2) * 1024 + 1 * (y 1).val = win0_4.index t (1 : Fin 2) * 1024 + (y 1).val; omega
  rw [hemb, Cert.SqDist.gauss_ix2]
  refine (congrArg (k0_pay1 (F := Ideal) (iblk m c 0 t) (iblk m c 1 t) (iblk m c 2 t) (iblk m c 3 t)) hyx).trans ?_
  refine point_eq (iblk m c 0 t) (iblk m c 1 t) (iblk m c 2 t) (iblk m c 3 t) (inp m c)
    (⟨win0_4.index t (0 : Fin 2) * 1024 + (y 0).val, hr⟩ : Fin 4096) (⟨win0_4.index t (1 : Fin 2) * 1024 + (y 1).val, hc⟩ : Fin 4096)
    (⟨(y 0).val, hy0⟩ : Fin 1024) (⟨(y 1).val, hy1⟩ : Fin 1024) ?_ ?_ ?_ ?_
  · intro k
    show V m c main_v0 (((cfg0.win 0).blk t).view.emb (ix2 (⟨(y 0).val, hy0⟩ : Fin 1024) k)) = _
    rw [v0_eq]
    refine congrArg (inp m c) (funext fun a => Fin.ext ?_)
    match a with
    | ⟨0, _⟩ => show win0_0.index t (0 : Fin 2) * 1024 + 1 * (y 0).val = win0_4.index t (0 : Fin 2) * 1024 + (y 0).val; omega
    | ⟨1, _⟩ => show win0_0.index t (1 : Fin 2) * 1024 + 1 * k.val = k.val; omega
  · intro k
    show V m c main_v0 (((cfg0.win 1).blk t).view.emb (ix2 (⟨(y 1).val, hy1⟩ : Fin 1024) k)) = _
    rw [v0_eq]
    refine congrArg (inp m c) (funext fun a => Fin.ext ?_)
    match a with
    | ⟨0, _⟩ => show win0_1.index t (0 : Fin 2) * 1024 + 1 * (y 1).val = win0_4.index t (1 : Fin 2) * 1024 + (y 1).val; omega
    | ⟨1, _⟩ => show win0_1.index t (1 : Fin 2) * 1024 + 1 * k.val = k.val; omega
  · show V m c main_v3 (((cfg0.win 2).blk t).view.emb (ix2 (⟨(y 0).val, hy0⟩ : Fin 1024) (0 : Fin 1))) = _
    rw [v3_eq]
    refine (congrArg (sqCol (inp m c)) (?_ : _ = ix2 (⟨win0_4.index t (0 : Fin 2) * 1024 + (y 0).val, hr⟩ : Fin 4096) (0 : Fin 1))).trans (sqCol_apply _ _ _)
    funext a; apply Fin.ext
    match a with
    | ⟨0, _⟩ => show win0_2.index t (0 : Fin 2) * 1024 + 1 * (y 0).val = win0_4.index t (0 : Fin 2) * 1024 + (y 0).val; omega
    | ⟨1, _⟩ => show win0_2.index t (1 : Fin 2) * 1 + 1 * 0 = 0; omega
  · show V m c main_v4 (((cfg0.win 3).blk t).view.emb (ix2 (0 : Fin 1) (⟨(y 1).val, hy1⟩ : Fin 1024))) = _
    rw [v4_eq]
    refine (congrArg (shapeCast S1x4096 (sqCol (inp m c)) shapeCasts_S4096x1_S1x4096)
      (?_ : _ = ix2 (0 : Fin 1) (⟨win0_4.index t (1 : Fin 2) * 1024 + (y 1).val, hc⟩ : Fin 4096))).trans (sqRow_apply _ _ _)
    funext a; apply Fin.ext
    match a with
    | ⟨0, _⟩ => show win0_3.index t (0 : Fin 2) * 1 + 1 * 0 = 0; omega
    | ⟨1, _⟩ => show win0_3.index t (1 : Fin 2) * 1024 + 1 * (y 1).val = win0_4.index t (1 : Fin 2) * 1024 + (y 1).val; omega

/-- An index of the result is in point `t`'s block iff each coordinate is in the block's range on its axis. -/
theorem mem_blk (t : Fin cfg0.N) (i : S4096x4096.Idx) :
    i ∈ ((cfg0.win 4).blk t).view.set ↔ ∀ a : Fin 2, win0_4.index t a * S1024x1024.size a ≤ (i a).val ∧ (i a).val < win0_4.index t a * S1024x1024.size a + S1024x1024.size a := by
  show i ∈ ((View.whole main_v5).slice (win0_4.rect t)).set ↔ _
  rw [View.set_slice_whole, Rect.mem_set_unit]
  exact Iff.rfl

/-- The sixteen blocks cover the result: index (r, c) is in the block of the point with coordinates (r / 1024, c / 1024). -/
theorem cover (i : S4096x4096.Idx) : ∃ t : Fin cfg0.N, (cfg0.win 4).flush t = true ∧ i ∈ ((cfg0.win 4).blk t).view.set := by
  have hi0 : (i 0).val < 4096 := (i 0).isLt
  have hi1 : (i 1).val < 4096 := (i 1).isLt
  obtain ⟨t, ht⟩ := idx_onto ⟨(i 0).val / 1024, by omega⟩ ⟨(i 1).val / 1024, by omega⟩
  have q0 : win0_4.index t (0 : Fin 2) = (i 0).val / 1024 := congrFun ht 0
  have q1 : win0_4.index t (1 : Fin 2) = (i 1).val / 1024 := congrFun ht 1
  refine ⟨t, flush0_4 t, ?_⟩
  rw [mem_blk]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 1024 ≤ (i 1).val ∧ (i 1).val < win0_4.index t (1 : Fin 2) * 1024 + 1024; omega

/-- The result array after the run is the specification's matrix of the input. -/
theorem final (c : Dev nD) : (dats m 0 c).arrAt 4 cfg0.N = Cert.SqDist.gauss (inp m c) :=
  (dats m 0 c).arrAt_eq_of_cover 4 (Cert.SqDist.gauss (inp m c)) (fun t _ => flushed_eq m c t) cover

/-! ## The run, read -/

/-- Every weakly fair execution of @main at the ideal instance terminates with the result array at the specification's
    matrix of the input and the input unchanged. -/
theorem run : θ_run defs (onTc (τ := τ) (main (F := Ideal))) ⟨m, fun _ => 0, ρ⟩ fun r => ∀ c : Dev nD,
      r.2.mem ((c : Thread nD τ).loc main_v5) = Cert.SqDist.gauss (inp m c)
      ∧ r.2.mem ((c : Thread nD τ).loc main_arg0) = m ((c : Thread nD τ).loc main_arg0) :=
  (θ_run defs _ _).mono (fun r h c => ⟨((h c).1 4).trans (final m c),
      ((h c).2 main_arg0 (Pipeline.mem_restRefs_of main_arg0 (by decide) (by decide))).trans (V_main_arg0 m c)⟩)
    (run_main m ρ)

end Cert.KernelIdeal.GaussValue

end
-- ==== Proof.RefGauss.lean ====
/-
  The reference program's last stage, read at an index, is the Gaussian kernel matrix of the specification.
  The reference forms the row sums of squares sq_r = 0 + sum_k X[r,k] * X[r,k], the Gram entry
  g_rc = sum_k X[r,k] * X^T[k,c], the clamped squared distance d = max((sq_r + sq_c) - 2 * g_rc, 0), and then
  exp((-d) / 2); the specification has exp(d * (-1/2)). On every extended real, (-d) / 2 = d * (-1/2).
-/
import proofs.«122050_j67370857005321_1_alg».proof.Proof.Gen.ReferenceIdeal.Read
import proofs.«122050_j67370857005321_1_alg».proof.Proof.SqDist

noncomputable section

open scoped BigOperators

namespace Cert.RefGauss

open Idealize.ShloMosaic Idealize.ShloMosaic.ValueIdx
open Cert.ReferenceIdeal.Read

/-- The word 0x40000000 denotes the real 2. -/
theorem ofBits_two : Ideal.ofBits .f32 0x40000000#32 = ((2 : ℝ) : EReal) := by
  simp [Ideal.ofBits, Ideal.ieee, -EReal.coe_mul]; norm_num

/-- The word 0xBF000000 denotes the real -(1/2). -/
theorem ofBits_neg_half : Ideal.ofBits .f32 0xBF000000#32 = ((-(1 / 2) : ℝ) : EReal) := by
  simp [Ideal.ofBits, Ideal.ieee, -EReal.coe_mul]; norm_num

/-- Dividing the negation by the word of 2 is multiplying by the word of -1/2, on every extended real. -/
theorem neg_div_two (d : EReal) :
    Ideal.div (-d) (Ideal.ofBits .f32 0x40000000#32) = d * Ideal.ofBits .f32 0xBF000000#32 := by
  rw [ofBits_two, ofBits_neg_half, Ideal.div_coe (by norm_num), EReal.coe_neg, EReal.neg_mul, mul_neg]

/-- The reference's row sum of squares, read at row `r`, is the specification's squared norm of that row. -/
theorem sq_apply (X : (⟨2, ![4096, 1024]⟩ : Shape).Idx → EReal) (r : Fin 4096) :
    val_main_v1 (F := Ideal) X (ix1 r) = Cert.SqDist.sqNorm X r := by
  rw [val_main_v1_apply, val_main_cst_apply, Ideal.ofBits_def]
  unfold Cert.SqDist.sqNorm
  refine congrArg (_ + ·) (Finset.sum_congr rfl fun k _ => ?_)
  have e : idx_main_v1 (ix1 r) k = ix2 r k :=
    funext fun a => Fin.ext (by match a with | ⟨0, _⟩ => rfl | ⟨1, _⟩ => rfl)
  rw [val_main_v0_apply, Ideal.mulf_def, e]

/-- The reference's Gram entry at `(r, c)`, a row of `X` against a column of its transpose, is the inner product
    of rows `r` and `c`. -/
theorem gram_apply (X : (⟨2, ![4096, 1024]⟩ : Shape).Idx → EReal) (r c : Fin 4096) :
    val_main_v3 (F := Ideal) X (ix2 r c) = Cert.SqDist.inner X r c := by
  rw [val_main_v3_apply]
  unfold Cert.SqDist.inner
  refine Finset.sum_congr rfl fun k _ => ?_
  have el : lidx_main_v3 (ix2 r c) k = ix2 r k :=
    funext fun a => Fin.ext (by match a with | ⟨0, _⟩ => rfl | ⟨1, _⟩ => rfl)
  have er : idx_main_v2 (ridx_main_v3 (ix2 r c) k) = ix2 c k :=
    funext fun a => Fin.ext (by match a with | ⟨0, _⟩ => rfl | ⟨1, _⟩ => rfl)
  rw [val_main_v2_apply, el, er]

/-- The row sums of squares made a column and spread along the columns read, at `(r, c)`, the value of row `r`. -/
theorem sqRow_apply (X : (⟨2, ![4096, 1024]⟩ : Shape).Idx → EReal) (r c : Fin 4096) :
    val_main_v6 (F := Ideal) X (ix2 r c) = Cert.SqDist.sqNorm X r := by
  have e : idx_main_v4 (idx_main_v6 (ix2 r c)) = ix1 r :=
    funext fun a => Fin.ext (by match a with | ⟨0, _⟩ => rfl)
  rw [val_main_v6_apply, val_main_v4_apply, e, sq_apply]

/-- The row sums of squares made a row and spread along the rows read, at `(r, c)`, the value of row `c`. -/
theorem sqCol_apply (X : (⟨2, ![4096, 1024]⟩ : Shape).Idx → EReal) (r c : Fin 4096) :
    val_main_v7 (F := Ideal) X (ix2 r c) = Cert.SqDist.sqNorm X c := by
  have e : idx_main_v5 (idx_main_v7 (ix2 r c)) = ix1 c :=
    funext fun a => Fin.ext (by match a with | ⟨0, _⟩ => rfl)
  rw [val_main_v7_apply, val_main_v5_apply, e, sq_apply]

/-- The reference's clamped squared distance at `(r, c)` is the specification's. -/
theorem dist2_apply (X : (⟨2, ![4096, 1024]⟩ : Shape).Idx → EReal) (r c : Fin 4096) :
    val_main_v13 (F := Ideal) X (ix2 r c) = Cert.SqDist.dist2 X r c := by
  rw [val_main_v13_apply, val_main_v12_apply, val_main_cst_1_apply, val_main_v11_apply, val_main_v8_apply,
    val_main_v10_apply, val_main_v9_apply, val_main_cst_0_apply, sqRow_apply, sqCol_apply, gram_apply,
    Ideal.maximumf_def, Ideal.subf_def, Ideal.addf_def, Ideal.mulf_def, Ideal.ofBits_def, Ideal.ofBits_def]
  rfl

/-- The reference's last stage is the Gaussian kernel matrix of the specification. -/
theorem ref_eq (X : (⟨2, ![4096, 1024]⟩ : Shape).Idx → EReal) :
    Cert.ReferenceIdeal.Read.val_main_v17 (F := Ideal) X = Cert.SqDist.gauss X := by
  funext i
  obtain ⟨r, c, rfl⟩ : ∃ r c, i = ix2 r c := ⟨i 0, i 1, eq_ix2 i⟩
  rw [Cert.SqDist.gauss_ix2, val_main_v17_apply, val_main_v16_apply, val_main_v15_apply, val_main_cst_2_apply,
    val_main_v14_apply, dist2_apply, Ideal.hostUnary_exp_def, Ideal.hostDivf_def, Ideal.hostNegf_def,
    Ideal.negf_def, Ideal.ofBits_def, neg_div_two]
  rfl

end Cert.RefGauss

end
-- ==== Proof.lean ====
/-
  The Gaussian kernel matrix of the rows of a 4096 x 1024 matrix X: the kernel against its reference, on the extended reals.

  Both programs compute K[r, c] = exp(-(1/2) max(|x_r|^2 + |x_c|^2 - 2 <x_r, x_c>, 0)). The kernel forms the squared row norms
  by host operations, runs a 4 x 4 grid whose point (i, j) multiplies row block i of X against row block j (contracting the
  1024 columns of both), adds the two norms, subtracts twice the product, clamps at zero, scales by the word of -1/2 and
  exponentiates. The reference forms the same norms and the product X X^T, clamps, negates, divides by the word of 2 and
  exponentiates. A change of float format is the identity on the extended reals, a product of a row block against a row block
  is the same sum over the columns as the row of X against the column of its transpose, and (-d) / 2 = d * (-1/2) for every
  extended real d, infinite ones included: so the two results agree entry by entry, with no use of the inputs' finiteness.

  The frames: the kernel's two row-block windows read ONE array, whose full share is dealt between them in halves
  (Proof/RegionIdeal.lean at any float instance; Proof/RegionBits.lean is the same text for the word-level program); the
  reference's frame is its run with the result dropped. The idealization rewrote nothing, so `preserves` is trivial.
  Proof/SqDist.lean is the specification; Proof/PayGauss.lean reads the body's arithmetic at one index; Proof/GaussValue.lean
  reads the run's result array as the specification's matrix, block by block; Proof/RefGauss.lean does the same for the
  reference's last stage.
-/
import proofs.«122050_j67370857005321_1_alg».proof.Defs
import proofs.«122050_j67370857005321_1_alg».proof.Proof.Gen.Kernel
import proofs.«122050_j67370857005321_1_alg».proof.Proof.Gen.KernelIdeal
import proofs.«122050_j67370857005321_1_alg».proof.Proof.Gen.ReferenceIdeal
import proofs.«122050_j67370857005321_1_alg».proof.Proof.Gen.Pre_finite_inputs
import proofs.«122050_j67370857005321_1_alg».proof.Proof.Gen.ReferenceIdeal.Run
import proofs.«122050_j67370857005321_1_alg».proof.Proof.Gen.ReferenceIdeal.Read
import proofs.«122050_j67370857005321_1_alg».proof.Proof.RegionBits
import proofs.«122050_j67370857005321_1_alg».proof.Proof.RegionIdeal
import proofs.«122050_j67370857005321_1_alg».proof.Proof.GaussValue
import proofs.«122050_j67370857005321_1_alg».proof.Proof.RefGauss
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Region.frame m ρ

theorem frame_ki : Cert.frame_KernelIdeal := fun m ρ _ => Cert.KernelIdeal.Region.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on X both programs end with the Gaussian kernel matrix of X. -/
theorem algebraic : Cert.algebraic_KernelIdeal_ReferenceIdeal := by
  intro m ρ m' ρ' _ hagree
  refine ⟨fun c => Cert.SqDist.gauss (m ((c.tc : Thread Cert.KernelIdeal.nD Cert.KernelIdeal.τ).loc Cert.KernelIdeal.main_arg0)),
    Cert.KernelIdeal.GaussValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.RefGauss.ref_eq, hagree c]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
